-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x256 : Shape := ⟨2, ![8, 256]⟩
abbrev S256x2048 : Shape := ⟨2, ![256, 2048]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256x2048 : S_.BroadcastsInDim S256x2048 (![] : Fin 0 → Fin S256x2048.rank)
  reducesTo_S256x2048_S_d0_1 : S256x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S256x2048 .f32) (main_arg5 : FVec F S2048 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S256x2048 .f32 := Host.absf main_arg4
  let main_cst_6 : FVec F S_ .f32 := constant S_ .f32 0x7F800000#32
  let main_v20 : FVec F S256x2048 .f32 := broadcastInDim S256x2048 ![] bcast_S_S256x2048 main_cst_6
  let main_v21 : IVec S256x2048 1 := cmpf .olt main_v19 main_v20
  let main_c_7 : IVec S_ 1 := constantI S_ 1 1#1
  let main_v22 : IVec S_ 1 := (fun x v => Host.reduce IntOp.andi x v reducesTo_S256x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8x4096x2048 .f32) (main_arg1 : FVec F S8x256 .f32) (main_arg2 : FVec F S256x2048 .f32) (main_arg3 : FVec F S256x2048 .f32) (main_arg4 : FVec F S256x2048 .f32) (main_arg5 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_v13 main_v16
-- ==== Kernel.lean ====
abbrev S8x4096x2048 : Shape := ⟨3, ![8, 4096, 2048]⟩
abbrev S8x256 : Shape := ⟨2, ![8, 256]⟩
abbrev S256x2048 : Shape := ⟨2, ![256, 2048]⟩
abbrev S2048 : Shape := ⟨1, ![2048]⟩
abbrev S2048x256 : Shape := ⟨2, ![2048, 256]⟩
abbrev S8x2048 : Shape := ⟨2, ![8, 2048]⟩
abbrev S1x2048 : Shape := ⟨2, ![1, 2048]⟩
abbrev S8x1x256 : Shape := ⟨3, ![8, 1, 256]⟩
abbrev S8x1x2048 : Shape := ⟨3, ![8, 1, 2048]⟩
abbrev S1x512x2048 : Shape := ⟨3, ![1, 512, 2048]⟩
abbrev S1x1x256 : Shape := ⟨3, ![1, 1, 256]⟩
abbrev S1x1x2048 : Shape := ⟨3, ![1, 1, 2048]⟩
abbrev S512x2048 : Shape := ⟨2, ![512, 2048]⟩
abbrev S1x256 : Shape := ⟨2, ![1, 256]⟩
abbrev S512x256 : Shape := ⟨2, ![512, 256]⟩

abbrev nBuf : Space → Nat
  | .hbm => 16
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S8x256, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2048, .f32⟩
  | .hbm, ⟨6, _⟩ => ⟨S2048x256, .f32⟩
  | .hbm, ⟨7, _⟩ => ⟨S2048x256, .bf16⟩
  | .hbm, ⟨8, _⟩ => ⟨S256x2048, .bf16⟩
  | .hbm, ⟨9, _⟩ => ⟨S8x2048, .f32⟩
  | .hbm, ⟨10, _⟩ => ⟨S1x2048, .f32⟩
  | .hbm, ⟨11, _⟩ => ⟨S8x2048, .f32⟩
  | .hbm, ⟨12, _⟩ => ⟨S8x2048, .f32⟩
  | .hbm, ⟨13, _⟩ => ⟨S8x1x256, .f32⟩
  | .hbm, ⟨14, _⟩ => ⟨S8x1x2048, .f32⟩
  | .hbm, ⟨15, _⟩ => ⟨S8x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S2048x256, .bf16⟩
  | .local _ .vmem, ⟨3, _⟩ => ⟨S256x2048, .bf16⟩
  | .local _ .vmem, ⟨4, _⟩ => ⟨S1x1x256, .f32⟩
  | .local _ .vmem, ⟨5, _⟩ => ⟨S1x1x256, .f32⟩
  | .local _ .vmem, ⟨6, _⟩ => ⟨S1x1x2048, .f32⟩
  | .local _ .vmem, ⟨7, _⟩ => ⟨S1x1x2048, .f32⟩
  | .local _ .vmem, ⟨8, _⟩ => ⟨S1x512x2048, .f32⟩
  | .local _ .vmem, ⟨9, _⟩ => ⟨S1x512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S256x2048_S2048x256_1_0 : S256x2048.Transposes [1, 0] S2048x256
  bitsLt_bf16_f32 : FTy.bits .bf16 < FTy.bits .f32
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  shapeCasts_S8x256_S8x1x256 : S8x256.ShapeCasts S8x1x256
  shapeCasts_S8x2048_S8x1x2048 : S8x2048.ShapeCasts S8x1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x256_S512x256 : S1x256.Broadcasts S512x256
  broadcasts_S1x2048_S512x2048 : S1x2048.Broadcasts S512x2048
  shapeCasts_S512x2048_S1x512x2048 : S512x2048.ShapeCasts S1x512x2048
  dot_S8x256_S256x2048_S8x2048_1_0_0_1_n_n_wf : DotDims.WF S8x256 S256x2048 S8x2048 [1] [0] [0] [1] [] []
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .f32 = 32 ∨ (Rect.block (s := S8x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .bf16 = 32 ∨ (Rect.block (s := S256x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S8x1x256.size a
  hwx0_3 : ∀ i : grid0.Coords, EltTy.bits .f32 = 32 ∨ (Rect.block (s := S8x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x4096x2048.size a
  hwx0_5 : ∀ i : grid0.Coords, EltTy.bits .f32 = 32 ∨ (Rect.block (s := S8x4096x2048) S1x512x2048.size (cc0_transform_5 i) (hinb0_5 i)).WholeWords (EltTy.packing .f32)

variable [Facts₀]

def dot_S8x256_S256x2048_S8x2048_1_0_0_1_n_n : DotDims S8x256 S256x2048 S8x2048 where
  lhsContracting := [1]
  rhsContracting := [0]
  lhsNonContracting := [0]
  rhsNonContracting := [1]
  lhsBatch := []
  rhsBatch := []
  wf := dot_S8x256_S256x2048_S8x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S8x256 : Shape := ⟨2, ![8, 256]⟩
abbrev S256x2048 : Shape := ⟨2, ![256, 2048]⟩
abbrev S2048 : Shape := ⟨1, ![2048]⟩
abbrev S8x4096x256 : Shape := ⟨3, ![8, 4096, 256]⟩
abbrev S8x1x256 : Shape := ⟨3, ![8, 1, 256]⟩
abbrev S8x2048 : Shape := ⟨2, ![8, 2048]⟩
abbrev S1x2048 : Shape := ⟨2, ![1, 2048]⟩
abbrev S8x1x2048 : Shape := ⟨3, ![8, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x256, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2048, .f32⟩
  | .hbm, ⟨6, _⟩ => ⟨S8x4096x256, .f32⟩
  | .hbm, ⟨7, _⟩ => ⟨S8x1x256, .f32⟩
  | .hbm, ⟨8, _⟩ => ⟨S8x4096x256, .f32⟩
  | .hbm, ⟨9, _⟩ => ⟨S8x4096x256, .f32⟩
  | .hbm, ⟨10, _⟩ => ⟨S8x4096x2048, .f32⟩
  | .hbm, ⟨11, _⟩ => ⟨S8x2048, .f32⟩
  | .hbm, ⟨12, _⟩ => ⟨S1x2048, .f32⟩
  | .hbm, ⟨13, _⟩ => ⟨S8x2048, .f32⟩
  | .hbm, ⟨14, _⟩ => ⟨S8x2048, .f32⟩
  | .hbm, ⟨15, _⟩ => ⟨S8x1x2048, .f32⟩
  | .hbm, ⟨16, _⟩ => ⟨S8x4096x2048, .f32⟩
  | .hbm, ⟨17, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S8x256_S8x1x256_0_2 : S8x256.BroadcastsInDim S8x1x256 (![0, 2] : Fin 2 → Fin S8x1x256.rank)
  bcast_S8x1x256_S8x4096x256_0_1_2 : S8x1x256.BroadcastsInDim S8x4096x256 (![0, 1, 2] : Fin 3 → Fin S8x4096x256.rank)
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  bcast_S8x2048_S8x1x2048_0_2 : S8x2048.BroadcastsInDim S8x1x2048 (![0, 2] : Fin 2 → Fin S8x1x2048.rank)
  bcast_S8x1x2048_S8x4096x2048_0_1_2 : S8x1x2048.BroadcastsInDim S8x4096x2048 (![0, 1, 2] : Fin 3 → Fin S8x4096x2048.rank)
  dot_S8x4096x2048_S256x2048_S8x4096x256_2_1_01_0_n_n_wf : DotDims.WF S8x4096x2048 S256x2048 S8x4096x256 [2] [1] [0, 1] [0] [] []
  dot_S8x4096x256_S256x2048_S8x4096x2048_2_0_01_1_n_n_wf : DotDims.WF S8x4096x256 S256x2048 S8x4096x2048 [2] [0] [0, 1] [1] [] []
  dot_S8x256_S256x2048_S8x2048_1_0_0_1_n_n_wf : DotDims.WF S8x256 S256x2048 S8x2048 [1] [0] [0] [1] [] []

variable [Facts₀]

def dot_S8x4096x2048_S256x2048_S8x4096x256_2_1_01_0_n_n : DotDims S8x4096x2048 S256x2048 S8x4096x256 where
  lhsContracting := [2]
  rhsContracting := [1]
  lhsNonContracting := [0, 1]
  rhsNonContracting := [0]
  lhsBatch := []
  rhsBatch := []
  wf := dot_S8x4096x2048_S256x2048_S8x4096x256_2_1_01_0_n_n_wf
def dot_S8x4096x256_S256x2048_S8x4096x2048_2_0_01_1_n_n : DotDims S8x4096x256 S256x2048 S8x4096x2048 where
  lhsContracting := [2]
  rhsContracting := [0]
  lhsNonContracting := [0, 1]
  rhsNonContracting := [1]
  lhsBatch := []
  rhsBatch := []
  wf := dot_S8x4096x256_S256x2048_S8x4096x2048_2_0_01_1_n_n_wf
def dot_S8x256_S256x2048_S8x2048_1_0_0_1_n_n : DotDims S8x256 S256x2048 S8x2048 where
  lhsContracting := [1]
  rhsContracting := [0]
  lhsNonContracting := [0]
  rhsNonContracting := [1]
  lhsBatch := []
  rhsBatch := []
  wf := dot_S8x256_S256x2048_S8x2048_1_0_0_1_n_n_wf

class Facts : Prop extends Facts₀ where

variable [Facts]
-- ==== Proof.LibPlainDot.lean ====
/-
  A plain matrix product read at one entry, on the extended reals — general in the three extents.

  The dimension numbers "contract the left operand's axis 1 with the right operand's axis 0, no batch axis"
  (`DotDims.plain M K N`: an `M × K` matrix times a `K × N` matrix) index the contraction by a rank-one
  shape. Read through the bijection of that shape's indices with `Fin K`, the operand indices at output entry
  `(i, j)` and contraction position `k` are `(i, k)` and `(k, j)`, so the product's entry is the textbook sum
  `Σ_k l[i, k] · r[k, j]`: for the vector unit's matrix product into a zero accumulator
  (`matmul_zero_plain_apply`) and for the host's `dot_general` (`dotGeneral_plain_apply`) alike. Both take the
  dimension record of a printed program together with a proof that it IS the plain one (`rfl` for a record
  printed with these lists), so that one lemma serves every such product of a program.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : ℕ}

/-- The left operand's index at entry `(i, j)`, contraction position `k`: row `i`, column `k`. -/
theorem plain_lhsIdx (i : Fin M) (j : Fin N) (k : Fin K) :
    (DotDims.plain M K N).lhsIdx (ix2 i j) ((contrEquiv1 (DotDims.plain M K N) K rfl rfl).symm k) = ix2 i k := by
  funext a
  apply Fin.ext
  match a with
  | ⟨0, _⟩ => rfl
  | ⟨1, _⟩ =>
    exact ((DotDims.plain M K N).lhsIdx_val_of_single rfl (ix2 i j) _).trans
      (contrEquiv1_symm_val (DotDims.plain M K N) K rfl rfl k)

/-- The right operand's index there: row `k`, column `j`. -/
theorem plain_rhsIdx (i : Fin M) (j : Fin N) (k : Fin K) :
    (DotDims.plain M K N).rhsIdx (ix2 i j) ((contrEquiv1 (DotDims.plain M K N) K rfl rfl).symm k) = ix2 k j := by
  funext a
  apply Fin.ext
  match a with
  | ⟨0, _⟩ =>
    exact ((DotDims.plain M K N).rhsIdx_val_of_single rfl (ix2 i j) _).trans
      (contrEquiv1_symm_val (DotDims.plain M K N) K rfl rfl k)
  | ⟨1, _⟩ => rfl

/-- The contraction's sum over its rank-one index shape is the sum over `Fin K` of row times column. -/
theorem plain_sum (l : (⟨2, ![M, K]⟩ : Shape).Idx → EReal) (r : (⟨2, ![K, N]⟩ : Shape).Idx → EReal) (i : Fin M) (j : Fin N) :
    ∑ q : (DotDims.plain M K N).contr.Idx,
        l ((DotDims.plain M K N).lhsIdx (ix2 i j) q) * r ((DotDims.plain M K N).rhsIdx (ix2 i j) q)
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A matrix product of the vector unit into the zero accumulator, at entry `(i, j)`: `Σ_k l[i, k] · r[k, j]`. -/
theorem matmul_zero_plain_apply {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (i : Fin M) (j : Fin N) :
    matmul D prec l r (constant (F := Ideal) ⟨2, ![M, N]⟩ .f32 0x00000000#32) (ix2 i j) = ∑ k : Fin K, l (ix2 i k) * r (ix2 k j) := by
  subst hD
  exact (Ideal.matmul_constant_zero_apply _ prec l r (ix2 i j)).trans (plain_sum l r i j)

/-- The host's `dot_general` with the same dimension numbers, at entry `(i, j)`: the same sum. -/
theorem dotGeneral_plain_apply {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (i : Fin M) (j : Fin N) :
    Host.dotGeneral D prec l r (ix2 i j) = ∑ k : Fin K, l (ix2 i k) * r (ix2 k j) := by
  subst hD
  exact (Ideal.dotGeneral_apply _ prec .single l r (ix2 i j)).trans (plain_sum l r i j)

end Cert.Lib.PlainDot

end
-- ==== Proof.Spec.lean ====
/-
  The meta-linear layer as ONE function of its six arrays, on the extended reals.

  For a batch entry `b`, a sequence position `s` and an output channel `k`,

      out[b, s, k] = Σ_p ( (Σ_j x[b, s, j] · left[p, j]) · scale[b, p] ) · right[p, k]
                     + ( (Σ_p scale[b, p] · biasW[p, k]) + biasB[k] ).

  The inner sum projects row `(b, s)` of the input on the 256 rows of `left`; each of the 256 coordinates is
  scaled by the batch entry's own coordinate `scale[b, p]` (a diagonal matrix between the two factors of a
  low-rank weight), the scaled coordinates are mapped to the 2048 output channels through `right`, and the
  batch entry's bias row `scale[b, ·] · biasW + biasB` is added, the same for every sequence position.

  Nothing here names a program. The modules that import this one show that the kernel's result array and the
  reference's result array are both `layer` of the six argument arrays; since every sum, product and addition
  is taken in this very grouping by both programs, no law of the extended reals beyond re-indexing a finite
  sum is needed, and the arguments' finiteness is never used.
-/
import Idealize.ShloMosaic.PureOps.Ideal
import Idealize.ShloMosaic.Lib.ValueIdx

noncomputable section

open scoped BigOperators

namespace Cert.MetaLinear

open Idealize.ShloMosaic Idealize.ShloMosaic.ValueIdx

/-- Index sets of the arrays, by their extents: the input and the result `[8, 4096, 2048]`, the per-batch scale
    `[8, 256]`, the three weight matrices `[256, 2048]`, the bias vector `[2048]`. -/
abbrev XIdx : Type := (⟨3, ![8, 4096, 2048]⟩ : Shape).Idx
abbrev ScaleIdx : Type := (⟨2, ![8, 256]⟩ : Shape).Idx
abbrev WIdx : Type := (⟨2, ![256, 2048]⟩ : Shape).Idx
abbrev BIdx : Type := (⟨1, ![2048]⟩ : Shape).Idx

/-- Coordinate `p` of the hidden vector at `(b, s)`: row `(b, s)` of the input against row `p` of `left`, times the
    batch entry's `p`-th scale. -/
def hidden (x : XIdx → EReal) (scale : ScaleIdx → EReal) (left : WIdx → EReal) (b : Fin 8) (s : Fin 4096) (p : Fin 256) : EReal :=
  (∑ j : Fin 2048, x (ix3 b s j) * left (ix2 p j)) * scale (ix2 b p)

/-- Channel `k` of batch entry `b`'s bias row: the scale vector against column `k` of `biasW`, plus `biasB[k]`. -/
def biasRow (scale : ScaleIdx → EReal) (biasW : WIdx → EReal) (biasB : BIdx → EReal) (b : Fin 8) (k : Fin 2048) : EReal :=
  (∑ p : Fin 256, scale (ix2 b p) * biasW (ix2 p k)) + biasB (ix1 k)

/-- The layer's output at `(b, s, k)`: the hidden vector against column `k` of `right`, plus the bias row's entry. -/
def entry (x : XIdx → EReal) (scale : ScaleIdx → EReal) (left right biasW : WIdx → EReal) (biasB : BIdx → EReal)
    (b : Fin 8) (s : Fin 4096) (k : Fin 2048) : EReal :=
  (∑ p : Fin 256, hidden x scale left b s p * right (ix2 p k)) + biasRow scale biasW biasB b k

/-- The whole output array. -/
def layer (x : XIdx → EReal) (scale : ScaleIdx → EReal) (left right biasW : WIdx → EReal) (biasB : BIdx → EReal) : XIdx → EReal :=
  fun i => entry x scale left right biasW biasB (i 0) (i 1) (i 2)

theorem layer_apply (x : XIdx → EReal) (scale : ScaleIdx → EReal) (left right biasW : WIdx → EReal) (biasB : BIdx → EReal)
    (b : Fin 8) (s : Fin 4096) (k : Fin 2048) :
    layer x scale left right biasW biasB (ix3 b s k) = entry x scale left right biasW biasB b s k := rfl

end Cert.MetaLinear

end
-- ==== Proof.HostPrefix.lean ====
/-
  What the kernel's region finds in the four arrays the host operations before it write.

  Before the one kernel launch the host program transposes `left` (so that the kernel can contract its rows),
  narrows it and `right` to a shorter float format (the identity on the extended reals), computes each batch
  entry's bias row `scale[b, ·] · biasW + biasB` by a matrix product and a broadcast, and gives the scale and the
  bias rows a unit middle axis so that one `[1, 1, n]` block per batch entry can be staged. Read at an entry:

    * the transposed matrix at `(j, p)` is `left[p, j]`;
    * the narrowed `right` at `(p, k)` is `right[p, k]`;
    * the reshaped scale at `(b, 0, p)` is `scale[b, p]`;
    * the reshaped bias rows at `(b, 0, k)` are `biasRow scale biasW biasB b k`.
-/
import proofs.«110969_j4561255268487_1_alg».proof.Proof.Gen.KernelIdeal.Frame
import proofs.«110969_j4561255268487_1_alg».proof.Proof.LibPlainDot
import proofs.«110969_j4561255268487_1_alg».proof.Proof.Spec
import Idealize.ShloMosaic.Lib.ValueLayout
import Idealize.ShloMosaic.Lib.Pipeline.Value
import Idealize.ShloMosaic.Lib.StableHlo.Run

noncomputable section

open scoped BigOperators

namespace Cert.MetaLinear.Kernel

open Cert.KernelIdeal Cert.KernelIdeal.Gen Cert.Lib.PlainDot Cert.MetaLinear
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The six arguments as launched, as arrays of extended reals. -/
abbrev argX (c : Dev nD) : XIdx → EReal := m ((c : Thread nD τ).loc main_arg0)
abbrev argScale (c : Dev nD) : ScaleIdx → EReal := m ((c : Thread nD τ).loc main_arg1)
abbrev argLeft (c : Dev nD) : WIdx → EReal := m ((c : Thread nD τ).loc main_arg2)
abbrev argRight (c : Dev nD) : WIdx → EReal := m ((c : Thread nD τ).loc main_arg3)
abbrev argBiasW (c : Dev nD) : WIdx → EReal := m ((c : Thread nD τ).loc main_arg4)
abbrev argBiasB (c : Dev nD) : BIdx → EReal := m ((c : Thread nD τ).loc main_arg5)

/-- The transposed, narrowed `left` at `(j, p)` is `left[p, j]`. -/
theorem leftT_apply (c : Dev nD) (j : Fin 2048) (p : Fin 256) :
    (V m c main_v1 : S2048x256.Idx → EReal) (ix2 j p) = argLeft m c (ix2 p j) := by
  have e : (V m c main_v1 : S2048x256.Idx → EReal)
      = truncf (F := Ideal) (φ := .f32) .bf16 (transpose S2048x256 [1, 0] (argLeft m c) transposes_S256x2048_S2048x256_1_0) bitsLt_bf16_f32 := by
    dsimp only [Gen.V, Gen.hostOps0]; after_results
  rw [e]
  exact transpose_ix2_apply (argLeft m c) transposes_S256x2048_S2048x256_1_0 j p

/-- The narrowed `right` is `right`. -/
theorem rightN_apply (c : Dev nD) (i : S256x2048.Idx) :
    (V m c main_v2 : S256x2048.Idx → EReal) i = argRight m c i := by
  have e : (V m c main_v2 : S256x2048.Idx → EReal) = truncf (F := Ideal) (φ := .f32) .bf16 (argRight m c) bitsLt_bf16_f32 := by
    dsimp only [Gen.V, Gen.hostOps0]; after_results
  rw [e]
  rfl

/-- The scale with a unit middle axis at `(b, u, p)` is `scale[b, p]`. -/
theorem scale3_apply (c : Dev nD) (b : Fin 8) (u : Fin 1) (p : Fin 256) :
    (V m c main_v7 : S8x1x256.Idx → EReal) (ix3 b u p) = argScale m c (ix2 b p) := by
  have e : (V m c main_v7 : S8x1x256.Idx → EReal) = shapeCast S8x1x256 (argScale m c) shapeCasts_S8x256_S8x1x256 := by
    dsimp only [Gen.V, Gen.hostOps0]; after_results; rfl
  rw [e]
  refine shapeCast_apply (argScale m c) shapeCasts_S8x256_S8x1x256 (ix3 b u p) (ix2 b p) ?_
  rw [Shape.rowMajor_val_two, Shape.rowMajor_val_three]
  show b.val * 256 + p.val = (b.val * 1 + u.val) * 256 + p.val
  have hu : u.val = 0 := by omega
  rw [hu]; omega

/-- The bias rows with a unit middle axis at `(b, u, k)`: `Σ_p scale[b, p] · biasW[p, k] + biasB[k]`. -/
theorem bias3_apply (c : Dev nD) (b : Fin 8) (u : Fin 1) (k : Fin 2048) :
    (V m c main_v8 : S8x1x2048.Idx → EReal) (ix3 b u k) = biasRow (argScale m c) (argBiasW m c) (argBiasB m c) b k := by
  have e : (V m c main_v8 : S8x1x2048.Idx → EReal)
      = shapeCast S8x1x2048
          (addf (F := Ideal) (φ := .f32)
            (Host.dotGeneral (φ₁ := .f32) (φ₂ := .f32) dot_S8x256_S256x2048_S8x2048_1_0_0_1_n_n none (argScale m c) (argBiasW m c))
            (broadcastInDim S8x2048 ![0, 1] bcast_S1x2048_S8x2048_0_1 (broadcastInDim S1x2048 ![1] bcast_S2048_S1x2048_1 (argBiasB m c))))
          shapeCasts_S8x2048_S8x1x2048 := by
    dsimp only [Gen.V, Gen.hostOps0]; after_results; rfl
  rw [e]
  refine (shapeCast_apply _ shapeCasts_S8x2048_S8x1x2048 (ix3 b u k) (ix2 b k) ?_).trans ?_
  · rw [Shape.rowMajor_val_two, Shape.rowMajor_val_three]
    show b.val * 2048 + k.val = (b.val * 1 + u.val) * 2048 + k.val
    have hu : u.val = 0 := by omega
    rw [hu]; omega
  · rw [addf_apply, dotGeneral_plain_apply (φ₁ := .f32) (φ₂ := .f32) dot_S8x256_S256x2048_S8x2048_1_0_0_1_n_n rfl none (argScale m c) (argBiasW m c) b k]
    unfold biasRow
    congr 1
    refine (broadcastInDim_apply _ bcast_S1x2048_S8x2048_0_1 _ (ix2 b k) (ix2 (0 : Fin 1) k) (fun a => ?_)).trans
      (broadcastInDim_apply _ bcast_S2048_S1x2048_1 (argBiasB m c) (ix2 (0 : Fin 1) k) (ix1 k) (fun a => ?_))
    · match a with
      | ⟨0, _⟩ => show 0 = if (1 : Nat) = 1 then 0 else b.val; rw [if_pos rfl]
      | ⟨1, _⟩ => show k.val = if (2048 : Nat) = 1 then 0 else k.val; rw [if_neg (by decide)]
    · match a with
      | ⟨0, _⟩ => show k.val = if (2048 : Nat) = 1 then 0 else k.val; rw [if_neg (by decide)]

end Cert.MetaLinear.Kernel

end
-- ==== Proof.Payload.lean ====
/-
  What one grid point's body stores, read at one entry of its `[1, 512, 2048]` block.

  The body loads a `[1, 512, 2048]` block `x` of the input, the whole `[2048, 256]` matrix `lt` (the transpose of
  `left`), the whole `[256, 2048]` matrix `rt`, the batch entry's `[1, 1, 256]` scale row `sc` and its
  `[1, 1, 2048]` bias row `bs`, and stores

      (x · lt) ⊙ sc · rt + bs

  where `·` is a matrix product into a zero accumulator, `⊙` multiplies every row by `sc`, and `bs` is added to
  every row. The narrowing of the products' operands to a shorter float format is the identity on the extended
  reals, and the shape casts only drop or add the leading unit axes. So at row `r`, channel `k`:

      Σ_p ( (Σ_j x[0, r, j] · lt[j, p]) · sc[0, 0, p] ) · rt[p, k]  +  bs[0, 0, k].
-/
import proofs.«110969_j4561255268487_1_alg».proof.Proof.Gen.KernelIdeal.Skeleton
import proofs.«110969_j4561255268487_1_alg».proof.Proof.LibPlainDot
import Idealize.ShloMosaic.Lib.ValueLayout
import Idealize.ShloMosaic.Lib.Pipeline.Value

noncomputable section

open scoped BigOperators

namespace Cert.MetaLinear.Kernel

open Cert.KernelIdeal Cert.KernelIdeal.Gen Cert.Lib.PlainDot
open Idealize.ShloMosaic Idealize.ShloMosaic.ValueIdx

/-- The first product, rows of the block against the columns of `lt`, at `(r, p)`. -/
theorem project_apply (a : FVec Ideal S512x2048 .bf16) (w : FVec Ideal S2048x256 .bf16) (r : Fin 512) (p : Fin 256) :
    matmul dot_S512x2048_S2048x256_S512x256_1_0_0_1_n_n none a w (constant (F := Ideal) S512x256 .f32 0x00000000#32) (ix2 r p)
      = ∑ j : Fin 2048, a (ix2 r j) * w (ix2 j p) :=
  matmul_zero_plain_apply _ rfl none a w r p

/-- The second product, hidden rows against the columns of `rt`, at `(r, k)`. -/
theorem expand_apply (h : FVec Ideal S512x256 .bf16) (w : FVec Ideal S256x2048 .bf16) (r : Fin 512) (k : Fin 2048) :
    matmul dot_S512x256_S256x2048_S512x2048_1_0_0_1_n_n none h w (constant (F := Ideal) S512x2048 .f32 0x00000000#32) (ix2 r k)
      = ∑ p : Fin 256, h (ix2 r p) * w (ix2 p k) :=
  matmul_zero_plain_apply _ rfl none h w r k

/-- The stored block at `(u, r, k)` (`u` the unit axis). -/
theorem payload_apply (x : Vec Ideal S1x512x2048 .f32) (lt : Vec Ideal S2048x256 .bf16) (rt : Vec Ideal S256x2048 .bf16)
    (sc : Vec Ideal S1x1x256 .f32) (bs : Vec Ideal S1x1x2048 .f32) (u : Fin 1) (r : Fin 512) (k : Fin 2048) :
    k0_pay1 (F := Ideal) x lt rt sc bs (ix3 u r k)
      = (∑ p : Fin 256, ((∑ j : Fin 2048, x (ix3 (0 : Fin 1) r j) * lt (ix2 j p)) * sc (ix3 (0 : Fin 1) (0 : Fin 1) p)) * rt (ix2 p k))
        + bs (ix3 (0 : Fin 1) (0 : Fin 1) k) := by
  unfold k0_pay1
  simp only [shapeCast_ab_1ab_apply, addf_apply, expand_apply, truncf_apply, mulf_apply, project_apply, broadcastTo_1b_ab_apply,
    shapeCast_1ab_ab_apply, shapeCast_self]

end Cert.MetaLinear.Kernel

end
-- ==== Proof.BlockEntry.lean ====
/-
  One stored entry is the layer's entry, given what the loaded blocks are.

  Suppose the body's five loaded blocks are these pieces of the arguments, for a batch entry `b`, a sequence
  position `s` and the block's row `r` that holds it: row `r` of the input block is row `(b, s)` of the input;
  `lt` is the transpose of `left`; `rt` is `right`; the scale row is `scale[b, ·]`; the bias row is the batch entry's
  `biasRow`. Then the value stored at `(·, r, k)` is `entry … b s k`: the payload's two nested sums are the
  specification's, summand by summand.
-/
import proofs.«110969_j4561255268487_1_alg».proof.Proof.Payload
import proofs.«110969_j4561255268487_1_alg».proof.Proof.Spec

noncomputable section

open scoped BigOperators

namespace Cert.MetaLinear.Kernel

open Cert.KernelIdeal Cert.KernelIdeal.Gen Cert.MetaLinear
open Idealize.ShloMosaic Idealize.ShloMosaic.ValueIdx

theorem stored_entry (X : XIdx → EReal) (scale : ScaleIdx → EReal) (L R BW : WIdx → EReal) (BB : BIdx → EReal)
    (x : Vec Ideal S1x512x2048 .f32) (lt : Vec Ideal S2048x256 .bf16) (rt : Vec Ideal S256x2048 .bf16)
    (sc : Vec Ideal S1x1x256 .f32) (bs : Vec Ideal S1x1x2048 .f32)
    (b : Fin 8) (s : Fin 4096) (r : Fin 512)
    (hx : ∀ q : Fin 2048, x (ix3 (0 : Fin 1) r q) = X (ix3 b s q))
    (hlt : ∀ (q : Fin 2048) (p : Fin 256), lt (ix2 q p) = L (ix2 p q))
    (hrt : ∀ (p : Fin 256) (k : Fin 2048), rt (ix2 p k) = R (ix2 p k))
    (hsc : ∀ p : Fin 256, sc (ix3 (0 : Fin 1) (0 : Fin 1) p) = scale (ix2 b p))
    (hbs : ∀ k : Fin 2048, bs (ix3 (0 : Fin 1) (0 : Fin 1) k) = biasRow scale BW BB b k)
    (u : Fin 1) (k : Fin 2048) :
    k0_pay1 (F := Ideal) x lt rt sc bs (ix3 u r k) = entry X scale L R BW BB b s k := by
  rw [payload_apply]
  unfold entry hidden
  simp only [hx, hlt, hrt, hsc, hbs]

end Cert.MetaLinear.Kernel

end
-- ==== Proof.Blocks.lean ====
/-
  From grid points to the whole result array.

  The grid has 8 × 8 points; point `t = (b, g)` works on batch entry `b` and the 512 sequence positions
  `512·g … 512·g + 511`. Its input block is rows `(b, 512·g + r)` of the input, its two weight blocks are the
  whole transposed `left` and the whole `right` (block index zero at every point), its scale and bias blocks are
  batch entry `b`'s rows, and it writes back block `(b, g, 0)` of the result. The relations between the six
  printed index maps are decided once over the 64 points (`idx_facts`).

  With them, what point `t` writes back is block `t` of `layer` of the six arguments (`flushed_eq`): each
  loaded block is the piece of its array that `stored_entry` asks for. Every index `(b, s, k)` of the result lies
  in the block of the point `(b, s / 512)` (`cover`), so after the run the result array is `layer` of the
  arguments (`final`), and the kernel's run ends there with the arguments unchanged (`run`).
-/
import proofs.«110969_j4561255268487_1_alg».proof.Proof.Gen.KernelIdeal.Value
import proofs.«110969_j4561255268487_1_alg».proof.Proof.HostPrefix
import proofs.«110969_j4561255268487_1_alg».proof.Proof.BlockEntry

set_option maxRecDepth 16384

noncomputable section

open scoped BigOperators

namespace Cert.MetaLinear.Kernel

open Cert.KernelIdeal Cert.KernelIdeal.Gen Cert.KernelIdeal.Value Cert.MetaLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input block moves with the output block on the batch and
    sequence axes; the two weight matrices stay at block zero; the scale and bias rows follow the batch axis;
    the output's block index is `(b, g, 0)` with `b, g ≤ 7`. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) ≤ 7 ∧ win0_5.index t (1 : Fin 3) ≤ 7 ∧ win0_5.index t (2 : Fin 3) = 0 :=
  (by decide +kernel : ∀ t : Fin grid0.N, _)

/-- Every pair (batch entry, group of 512 positions) is some point's output block. -/
theorem idx_onto : ∀ (b : Fin 8) (g : Fin 8), ∃ t : Fin cfg0.N, win0_5.index t = ![b.val, g.val, 0] :=
  (by decide +kernel : ∀ (b : Fin 8) (g : Fin 8), ∃ t : Fin grid0.N, win0_5.index t = ![b.val, g.val, 0])

/-! ## Each input window's block as a piece of its array -/

/-- The input block at `z` is the input at the index whose coordinates are block index × block size + `z`'s. -/
theorem xblk_apply (c : Dev nD) (t : Fin cfg0.N) (z : S1x512x2048.Idx) (i : XIdx)
    (h0 : (i 0).val = win0_0.index t (0 : Fin 3) * 1 + 1 * (z 0).val)
    (h1 : (i 1).val = win0_0.index t (1 : Fin 3) * 512 + 1 * (z 1).val)
    (h2 : (i 2).val = win0_0.index t (2 : Fin 3) * 2048 + 1 * (z 2).val) :
    (iblk m c 0 t : Vec Ideal S1x512x2048 .f32) z = argX m c i := by
  unfold iblk
  show V m c main_arg0 (((cfg0.win 0).blk t).view.emb z) = _
  rw [V_main_arg0]
  refine congrArg (argX m c) (funext fun a => Fin.ext ?_)
  match a with
  | ⟨0, _⟩ => exact h0.symm
  | ⟨1, _⟩ => exact h1.symm
  | ⟨2, _⟩ => exact h2.symm

/-- The transposed-`left` block is the whole array the host wrote. -/
theorem ltblk_apply (c : Dev nD) (t : Fin cfg0.N) (q : Fin 2048) (p : Fin 256) :
    (iblk m c 1 t : Vec Ideal S2048x256 .bf16) (ix2 q p) = argLeft m c (ix2 p q) := by
  obtain ⟨-, -, -, e10, e11, -⟩ := idx_facts t
  unfold iblk
  show (V m c main_v1 : S2048x256.Idx → EReal) (((cfg0.win 1).blk t).view.emb (ix2 q p)) = _
  rw [← leftT_apply m c q p]
  refine congrArg (V m c main_v1 : S2048x256.Idx → EReal) (funext fun a => Fin.ext ?_)
  match a with
  | ⟨0, _⟩ => show win0_1.index t (0 : Fin 2) * 2048 + 1 * q.val = q.val; omega
  | ⟨1, _⟩ => show win0_1.index t (1 : Fin 2) * 256 + 1 * p.val = p.val; omega

/-- The `right` block is the whole narrowed array, which is `right`. -/
theorem rtblk_apply (c : Dev nD) (t : Fin cfg0.N) (p : Fin 256) (k : Fin 2048) :
    (iblk m c 2 t : Vec Ideal S256x2048 .bf16) (ix2 p k) = argRight m c (ix2 p k) := by
  obtain ⟨-, -, -, -, -, e20, e21, -⟩ := idx_facts t
  unfold iblk
  show (V m c main_v2 : S256x2048.Idx → EReal) (((cfg0.win 2).blk t).view.emb (ix2 p k)) = _
  rw [← rightN_apply m c (ix2 p k)]
  refine congrArg (V m c main_v2 : S256x2048.Idx → EReal) (funext fun a => Fin.ext ?_)
  match a with
  | ⟨0, _⟩ => show win0_2.index t (0 : Fin 2) * 256 + 1 * p.val = p.val; omega
  | ⟨1, _⟩ => show win0_2.index t (1 : Fin 2) * 2048 + 1 * k.val = k.val; omega

/-- The scale block is batch entry `b`'s row, `b` the output block's batch index. -/
theorem scblk_apply (c : Dev nD) (t : Fin cfg0.N) (b : Fin 8) (hb : b.val = win0_5.index t (0 : Fin 3)) (p : Fin 256) :
    (iblk m c 3 t : Vec Ideal S1x1x256 .f32) (ix3 (0 : Fin 1) (0 : Fin 1) p) = argScale m c (ix2 b p) := by
  obtain ⟨-, -, -, -, -, -, -, e30, e31, e32, -⟩ := idx_facts t
  unfold iblk
  show (V m c main_v7 : S8x1x256.Idx → EReal) (((cfg0.win 3).blk t).view.emb (ix3 (0 : Fin 1) (0 : Fin 1) p)) = _
  rw [← scale3_apply m c b (0 : Fin 1) p]
  refine congrArg (V m c main_v7 : S8x1x256.Idx → EReal) (funext fun a => Fin.ext ?_)
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 256 + 1 * p.val = p.val; omega

/-- The bias block is batch entry `b`'s bias row. -/
theorem bsblk_apply (c : Dev nD) (t : Fin cfg0.N) (b : Fin 8) (hb : b.val = win0_5.index t (0 : Fin 3)) (k : Fin 2048) :
    (iblk m c 4 t : Vec Ideal S1x1x2048 .f32) (ix3 (0 : Fin 1) (0 : Fin 1) k)
      = biasRow (argScale m c) (argBiasW m c) (argBiasB m c) b k := by
  obtain ⟨-, -, -, -, -, -, -, -, -, -, e40, e41, e42, -⟩ := idx_facts t
  unfold iblk
  show (V m c main_v8 : S8x1x2048.Idx → EReal) (((cfg0.win 4).blk t).view.emb (ix3 (0 : Fin 1) (0 : Fin 1) k)) = _
  rw [← bias3_apply m c b (0 : Fin 1) k]
  refine congrArg (V m c main_v8 : S8x1x2048.Idx → EReal) (funext fun a => Fin.ext ?_)
  match a with
  | ⟨0, _⟩ => show win0_4.index t (0 : Fin 3) * 1 + 1 * 0 = b.val; omega
  | ⟨1, _⟩ => show win0_4.index t (1 : Fin 3) * 1 + 1 * 0 = 0; omega
  | ⟨2, _⟩ => show win0_4.index t (2 : Fin 3) * 2048 + 1 * k.val = k.val; omega

/-! ## What a point writes back -/

/-- The body's result at block index `y` of point `t` is `layer` at the array index `i` that block index lands on. -/
theorem point_entry (c : Dev nD) (t : Fin cfg0.N) (y : S1x512x2048.Idx) (i : XIdx)
    (h0 : (i 0).val = win0_5.index t (0 : Fin 3) * 1 + 1 * (y 0).val)
    (h1 : (i 1).val = win0_5.index t (1 : Fin 3) * 512 + 1 * (y 1).val)
    (h2 : (i 2).val = win0_5.index t (2 : Fin 3) * 2048 + 1 * (y 2).val) :
    k0_pay1 (F := Ideal) (iblk m c 0 t) (iblk m c 1 t) (iblk m c 2 t) (iblk m c 3 t) (iblk m c 4 t) y
      = layer (argX m c) (argScale m c) (argLeft m c) (argRight m c) (argBiasW m c) (argBiasB m c) i := by
  obtain ⟨e00, e01, e02, -, -, -, -, -, -, -, -, -, -, b0, b1, e52⟩ := idx_facts t
  obtain ⟨u, r, k, rfl⟩ : ∃ (u : Fin 1) (r : Fin 512) (k : Fin 2048), y = ix3 u r k := ⟨y 0, y 1, y 2, eq_ix3 y⟩
  obtain ⟨b, s, k', rfl⟩ : ∃ (b : Fin 8) (s : Fin 4096) (k' : Fin 2048), i = ix3 b s k' := ⟨i 0, i 1, i 2, eq_ix3 i⟩
  have hu : u.val = 0 := by omega
  have hb : b.val = win0_5.index t (0 : Fin 3) := by
    have : b.val = win0_5.index t (0 : Fin 3) * 1 + 1 * u.val := h0
    omega
  have hs : s.val = win0_5.index t (1 : Fin 3) * 512 + 1 * r.val := h1
  have hk : k' = k := Fin.ext (by
    have : k'.val = win0_5.index t (2 : Fin 3) * 2048 + 1 * k.val := h2
    omega)
  subst hk
  rw [layer_apply]
  refine stored_entry (argX m c) (argScale m c) (argLeft m c) (argRight m c) (argBiasW m c) (argBiasB m c)
    (iblk m c 0 t) (iblk m c 1 t) (iblk m c 2 t) (iblk m c 3 t) (iblk m c 4 t) b s r
    (fun q => ?_) (fun q p => ltblk_apply m c t q p) (fun p k => rtblk_apply m c t p k)
    (fun p => scblk_apply m c t b hb p) (fun k => bsblk_apply m c t b hb k) u k'
  refine xblk_apply m c t (ix3 (0 : Fin 1) r q) (ix3 b s q) ?_ ?_ ?_
  · show b.val = win0_0.index t (0 : Fin 3) * 1 + 1 * 0; omega
  · show s.val = win0_0.index t (1 : Fin 3) * 512 + 1 * r.val; omega
  · show q.val = win0_0.index t (2 : Fin 3) * 2048 + 1 * q.val; omega

/-- WHAT POINT `t` WRITES BACK is block `t` of `layer` of the six arguments. -/
theorem flushed_eq (c : Dev nD) (t : Fin cfg0.N) :
    (dats m 0 c).flushed 5 t = ((cfg0.win 5).blk t).view.read (Elt Ideal)
      (layer (argX m c) (argScale m c) (argLeft m c) (argRight m c) (argBiasW m c) (argBiasB m c)) := by
  rw [flushed5]
  unfold out0_5
  rw [View.canon_unit_zero hz3]
  simp only [View.ld_unit_zero (S := S1x512x2048) hz3, View.ld_unit_zero (S := S2048x256) hz2, View.ld_unit_zero (S := S256x2048) hz2,
    View.ld_unit_zero (S := S1x1x256) hz3, View.ld_unit_zero (S := S1x1x2048) hz3]
  funext j
  exact point_entry m c t ((win0 5).xinj (grid0.coords t) j) (((cfg0.win 5).blk t).view.emb j) rfl rfl rfl

/-! ## The cover, the final array, the run -/

/-- An index of the result is in point `t`'s block iff each coordinate is in the block's range on its axis. -/
theorem mem_blk (t : Fin cfg0.N) (i : S8x4096x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v9).slice (win0_5.rect t)).set ↔ _
  rw [View.set_slice_whole, Rect.mem_set_unit]
  exact Iff.rfl

/-- Every index of the result is in the block of the point at its batch entry and its group of 512 positions. -/
theorem cover (i : S8x4096x2048.Idx) :
    ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- THE RESULT ARRAY after the run is `layer` of the six arguments. -/
theorem final (c : Dev nD) :
    (dats m 0 c).arrAt 5 cfg0.N = layer (argX m c) (argScale m c) (argLeft m c) (argRight m c) (argBiasW m c) (argBiasB m c) :=
  (dats m 0 c).arrAt_eq_of_cover 5 _ (fun t _ => flushed_eq m c t) cover

/-- The kernel's run, read: the result array at `layer` of the arguments, the arguments unchanged. -/
theorem run : θ_run defs (onTc (τ := τ) (main (F := Ideal))) ⟨m, fun _ => 0, ρ⟩ fun r => ∀ c : Dev nD,
      r.2.mem ((c : Thread nD τ).loc main_v9)
        = layer (argX m c) (argScale m c) (argLeft m c) (argRight m c) (argBiasW m c) (argBiasB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.MetaLinear.Kernel

end
-- ==== Proof.RefLayer.lean ====
/-
  The reference program computes `layer`.

  Read one operation at a time, the reference's last stage at index `(b, s, k)` is
  `Σ_p (Σ_j x[b,s,j]·left[p,j]) · scale[b,p] · right[p,k]  +  ((Σ_p scale[b,p]·biasW[p,k]) + biasB[k])`:
  the first `dot_general` contracts the input's last axis with `left`'s last axis, the two broadcasts put the
  batch entry's scale vector under every sequence position, the second `dot_general` contracts the 256 hidden
  coordinates with `right`'s rows, and the bias row — a third product plus the broadcast bias vector — is
  broadcast over the sequence axis and added. The composed index functions of those stages are the coordinate
  triples and pairs `layer` is written with.
-/
import proofs.«110969_j4561255268487_1_alg».proof.Proof.Gen.ReferenceIdeal.Read
import proofs.«110969_j4561255268487_1_alg».proof.Proof.Spec

noncomputable section

open scoped BigOperators

namespace Cert.MetaLinear.Ref

open Cert.ReferenceIdeal Cert.ReferenceIdeal.Read Cert.MetaLinear
open Idealize.ShloMosaic Idealize.ShloMosaic.ValueIdx

/-- The first product's left operand is read at row `(b, s)`, column `j` of the input. -/
theorem x_idx (i : S8x4096x2048.Idx) (p : Fin 256) (j : Fin 2048) :
    lidx_main_v0 (lidx_main_v4 i p) j = ix3 (i 0) (i 1) j :=
  funext fun a => Fin.ext (by match a with | ⟨0, _⟩ => rfl | ⟨1, _⟩ => rfl | ⟨2, _⟩ => rfl)

/-- Its right operand at row `p`, column `j` of `left`. -/
theorem left_idx (i : S8x4096x2048.Idx) (p : Fin 256) (j : Fin 2048) :
    ridx_main_v0 (lidx_main_v4 i p) j = ix2 p j :=
  funext fun a => Fin.ext (by match a with | ⟨0, _⟩ => rfl | ⟨1, _⟩ => rfl)

/-- The two broadcasts of the scale read entry `(b, p)`. -/
theorem scale_idx (i : S8x4096x2048.Idx) (p : Fin 256) :
    idx_main_v1 (idx_main_v2 (lidx_main_v4 i p)) = ix2 (i 0) p :=
  funext fun a => Fin.ext (by match a with | ⟨0, _⟩ => rfl | ⟨1, _⟩ => rfl)

/-- The second product's right operand at row `p`, column `k` of `right`. -/
theorem right_idx (i : S8x4096x2048.Idx) (p : Fin 256) : ridx_main_v4 i p = ix2 p (i 2) :=
  funext fun a => Fin.ext (by match a with | ⟨0, _⟩ => rfl | ⟨1, _⟩ => rfl)

/-- The bias row's product reads the scale at `(b, p)` … -/
theorem bias_scale_idx (i : S8x4096x2048.Idx) (p : Fin 256) :
    lidx_main_v5 (idx_main_v9 (idx_main_v10 i)) p = ix2 (i 0) p :=
  funext fun a => Fin.ext (by match a with | ⟨0, _⟩ => rfl | ⟨1, _⟩ => rfl)

/-- … and `biasW` at `(p, k)`. -/
theorem biasW_idx (i : S8x4096x2048.Idx) (p : Fin 256) :
    ridx_main_v5 (idx_main_v9 (idx_main_v10 i)) p = ix2 p (i 2) :=
  funext fun a => Fin.ext (by match a with | ⟨0, _⟩ => rfl | ⟨1, _⟩ => rfl)

/-- The bias vector is read at channel `k`. -/
theorem biasB_idx (i : S8x4096x2048.Idx) :
    idx_main_v6 (idx_main_v7 (idx_main_v9 (idx_main_v10 i))) = ix1 (i 2) :=
  funext fun a => Fin.ext (by match a with | ⟨0, _⟩ => rfl)

/-- The reference's result stage is `layer` of its six arguments. -/
theorem stage_eq_layer (x : (⟨S8x4096x2048, .f32⟩ : BufTy).Contents (Elt Ideal)) (scale : (⟨S8x256, .f32⟩ : BufTy).Contents (Elt Ideal))
    (left right biasW : (⟨S256x2048, .f32⟩ : BufTy).Contents (Elt Ideal)) (biasB : (⟨S2048, .f32⟩ : BufTy).Contents (Elt Ideal)) :
    val_main_v11 (F := Ideal) x scale left right biasW biasB = layer x scale left right biasW biasB := by
  funext i
  rw [val_main_v11_apply, val_main_v4_apply, val_main_v10_apply, val_main_v9_apply, val_main_v8_apply, val_main_v5_apply,
    val_main_v7_apply, val_main_v6_apply]
  simp only [val_main_v3_apply, val_main_v0_apply, val_main_v2_apply, val_main_v1_apply, x_idx, left_idx, scale_idx, right_idx,
    bias_scale_idx, biasW_idx, biasB_idx]
  rfl

end Cert.MetaLinear.Ref

end
-- ==== Proof.lean ====
/-
  A meta-linear layer: a low-rank weight `leftᵀ · diag(scale[b, ·]) · right` chosen per batch entry, applied to
  an `[8, 4096, 2048]` input, plus a per-batch bias row — a tiled kernel against its plain reference, equal on
  the extended reals.

  Both programs compute, at batch entry `b`, sequence position `s`, output channel `k`,

      Σ_p ( (Σ_j x[b,s,j] · left[p,j]) · scale[b,p] ) · right[p,k]  +  ( (Σ_p scale[b,p] · biasW[p,k]) + biasB[k] )

  (`Cert.MetaLinear.layer`, Proof/Spec.lean). The reference does so with two contractions over the whole arrays
  (Proof/RefLayer.lean). The kernel transposes `left` and forms the bias rows on the host, then runs an 8 × 8 grid
  whose point `(b, g)` multiplies 512 rows of the input by the transposed `left`, scales the 256 hidden
  coordinates, multiplies by `right` and adds the bias row (Proof/Payload.lean, Proof/HostPrefix.lean,
  Proof/BlockEntry.lean); the 64 blocks tile the result (Proof/Blocks.lean). The kernel narrows the operands of
  its products to a shorter float format, which is the identity on the extended reals, and every sum and product
  is taken in the same grouping by both programs, so the two results are one term: no law of the extended reals
  is used beyond re-indexing the contractions' finite sums (Proof/LibPlainDot.lean), and the arguments'
  finiteness is not needed.

  The three frames: the kernel's at both instances are its generated frame certificates; the reference has no
  kernel launch, and its frame is its run with the result dropped. The idealization rewrote no operation, so
  there is nothing to preserve.
-/
import proofs.«110969_j4561255268487_1_alg».proof.Defs
import proofs.«110969_j4561255268487_1_alg».proof.Proof.Gen.Kernel
import proofs.«110969_j4561255268487_1_alg».proof.Proof.Gen.Kernel.Skeleton
import proofs.«110969_j4561255268487_1_alg».proof.Proof.Gen.Kernel.Launch
import proofs.«110969_j4561255268487_1_alg».proof.Proof.Gen.Kernel.Points
import proofs.«110969_j4561255268487_1_alg».proof.Proof.Gen.Kernel.Frame
import proofs.«110969_j4561255268487_1_alg».proof.Proof.Gen.KernelIdeal
import proofs.«110969_j4561255268487_1_alg».proof.Proof.Gen.KernelIdeal.Skeleton
import proofs.«110969_j4561255268487_1_alg».proof.Proof.Gen.KernelIdeal.Launch
import proofs.«110969_j4561255268487_1_alg».proof.Proof.Gen.KernelIdeal.Points
import proofs.«110969_j4561255268487_1_alg».proof.Proof.Gen.KernelIdeal.Frame
import proofs.«110969_j4561255268487_1_alg».proof.Proof.Gen.ReferenceIdeal
import proofs.«110969_j4561255268487_1_alg».proof.Proof.Gen.Pre_finite_inputs
import proofs.«110969_j4561255268487_1_alg».proof.Proof.Gen.KernelIdeal.Value
import proofs.«110969_j4561255268487_1_alg».proof.Proof.Gen.ReferenceIdeal.Run
import proofs.«110969_j4561255268487_1_alg».proof.Proof.Gen.ReferenceIdeal.Read
import proofs.«110969_j4561255268487_1_alg».proof.Proof.Blocks
import proofs.«110969_j4561255268487_1_alg».proof.Proof.RefLayer
import Idealize.ShloMosaic.Adequacy
import Idealize.ShloMosaic.Init

noncomputable section

namespace Cert.Proof

open Idealize.ShloMosaic Idealize.ShloMosaic.TcCoe Idealize.SL.Sem

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result array ends at `layer` of them (the tiled
    run read back) and so does the reference's (its last stage is `layer`). -/
theorem algebraic : Cert.algebraic_KernelIdeal_ReferenceIdeal := by
  intro m ρ m' ρ' _ hagree
  refine ⟨fun c => Cert.MetaLinear.layer (Cert.MetaLinear.Kernel.argX m c) (Cert.MetaLinear.Kernel.argScale m c)
      (Cert.MetaLinear.Kernel.argLeft m c) (Cert.MetaLinear.Kernel.argRight m c) (Cert.MetaLinear.Kernel.argBiasW m c)
      (Cert.MetaLinear.Kernel.argBiasB m c), Cert.MetaLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.MetaLinear.Ref.stage_eq_layer]
  obtain ⟨a0, a1, a2, a3, a4, a5⟩ := hagree c
  rw [a0, a1, a2, a3, a4, a5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
